-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S3072 : Shape := ⟨1, ![3072]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S4x2048x1024 .f32) (main_arg1 : FVec F S3072x1024 .f32) (main_arg2 : FVec F S3072 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S4x2048x1024 : Shape := ⟨3, ![4, 2048, 1024]⟩
abbrev S3072x1024 : Shape := ⟨2, ![3072, 1024]⟩
abbrev S3072 : Shape := ⟨1, ![3072]⟩
abbrev S8192x1024 : Shape := ⟨2, ![8192, 1024]⟩
abbrev S1024x3072 : Shape := ⟨2, ![1024, 3072]⟩
abbrev S8192x3072 : Shape := ⟨2, ![8192, 3072]⟩
abbrev S256x1024 : Shape := ⟨2, ![256, 1024]⟩
abbrev S256x3072 : Shape := ⟨2, ![256, 3072]⟩
abbrev S1x3072 : Shape := ⟨2, ![1, 3072]⟩
abbrev S4x2048x3072 : Shape := ⟨3, ![4, 2048, 3072]⟩
abbrev S4x2048x2048 : Shape := ⟨3, ![4, 2048, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S8192x1024, .f32⟩
  | .hbm, ⟨4, _⟩ => ⟨S1024x3072, .f32⟩
  | .hbm, ⟨5, _⟩ => ⟨S8192x3072, .bf16⟩
  | .hbm, ⟨6, _⟩ => ⟨S4x2048x3072, .bf16⟩
  | .hbm, ⟨7, _⟩ => ⟨S4x2048x1024, .bf16⟩
  | .hbm, ⟨8, _⟩ => ⟨S4x2048x1024, .bf16⟩
  | .hbm, ⟨9, _⟩ => ⟨S4x2048x1024, .bf16⟩
  | .hbm, ⟨10, _⟩ => ⟨S4x2048x1024, .f32⟩
  | .hbm, ⟨11, _⟩ => ⟨S4x2048x2048, .f32⟩
  | .local _ .vmem, ⟨0, _⟩ => ⟨S256x1024, .f32⟩
  | .local _ .vmem, ⟨1, _⟩ => ⟨S256x1024, .f32⟩
  | .local _ .vmem, ⟨2, _⟩ => ⟨S1024x3072, .f32⟩
  | .local _ .vmem, ⟨3, _⟩ => ⟨S3072, .f32⟩
  | .local _ .vmem, ⟨4, _⟩ => ⟨S256x3072, .bf16⟩
  | .local _ .vmem, ⟨5, _⟩ => ⟨S256x3072, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1x256x1024, .f32⟩
  | .local _ .vmem, ⟨13, _⟩ => ⟨S1x256x1024, .f32⟩
  | .local _ .vmem, ⟨14, _⟩ => ⟨S1x256x2048, .f32⟩
  | .local _ .vmem, ⟨15, _⟩ => ⟨S1x256x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S4x2048x1024_S8192x1024 : S4x2048x1024.ShapeCasts S8192x1024
  transposes_S3072x1024_S1024x3072_1_0 : S3072x1024.Transposes [1, 0] S1024x3072
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S256x3072 : S1x3072.Broadcasts S256x3072
  inb_S256x3072_S256x3072_0_0 : ∀ a, (![0, 0] : Fin 2 → Nat) a + S256x3072.size a ≤ S256x3072.size a
  h_S256x3072 : 0 < S256x3072.numel
  packedbf16_S256x3072_S256x3072_0_0 : (Rect.unit (s := S256x3072) ![0, 0] S256x3072.size inb_S256x3072_S256x3072_0_0).PackedRows (EltTy.packing .bf16)
  shapeCasts_S8192x3072_S4x2048x3072 : S8192x3072.ShapeCasts S4x2048x3072
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x1024_S1x256x1024 : S256x1024.ShapeCasts S1x256x1024
  dot_S256x1024_S1024x3072_S256x3072_1_0_0_1_n_n_wf : DotDims.WF S256x1024 S1024x3072 S256x3072 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .f32 = 32 ∨ (Rect.block (s := S1024x3072) S1024x3072.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x3072.size a ≤ S8192x3072.size a
  hwx0_3 : ∀ i : grid0.Coords, EltTy.bits .bf16 = 32 ∨ (Rect.block (s := S8192x3072) S256x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x1024.size a
  hwx1_0 : ∀ i : grid1.Coords, EltTy.bits .bf16 = 32 ∨ (Rect.block (s := S4x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S4x2048x1024.size a
  hwx1_3 : ∀ i : grid1.Coords, EltTy.bits .f32 = 32 ∨ (Rect.block (s := S4x2048x1024) S1x256x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x2048.size a ≤ S4x2048x2048.size a
  hwx1_4 : ∀ i : grid1.Coords, EltTy.bits .f32 = 32 ∨ (Rect.block (s := S4x2048x2048) S1x256x2048.size (cc1_transform_4 i) (hinb1_4 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7_0) S1x256x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7_1) S1x256x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S3072 : Shape := ⟨1, ![3072]⟩
abbrev S4x2048x3072 : Shape := ⟨3, ![4, 2048, 3072]⟩
abbrev S1x1x3072 : Shape := ⟨3, ![1, 1, 3072]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S4x2048x3072, .f32⟩
  | .hbm, ⟨4, _⟩ => ⟨S1x1x3072, .f32⟩
  | .hbm, ⟨5, _⟩ => ⟨S4x2048x3072, .f32⟩
  | .hbm, ⟨6, _⟩ => ⟨S4x2048x3072, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x2048, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048, .f32⟩
  | .hbm, ⟨16, _⟩ => ⟨S_, .f32⟩
  | .hbm, ⟨17, _⟩ => ⟨S4x2048, .f32⟩
  | .hbm, ⟨18, _⟩ => ⟨S4x2048, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S3072x1024_S4x2048x3072_2_1_01_0_n_n_wf : DotDims.WF S4x2048x1024 S3072x1024 S4x2048x3072 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Spec.lean ====
/-
  Scaled dot-product self-attention over the extended reals, entry by entry: four sequences of 2048 positions with 1024
  features each. One dense layer gives every position 3072 numbers, the input row against a weight row plus a bias; the
  first, second and third run of 1024 of them are the position's query, key and value. Position i scores position j by
  the inner product of i's query with j's key times 2⁻⁵; a row of scores is turned into weights by subtracting the row's
  largest score, exponentiating, and dividing by the row's total; the result at i is the weighted sum of the values.
  Also here: the three facts about the constants and the order that join a division by 32 to the product with 2⁻⁵, and a
  running maximum to itself capped from below by its own start.
-/
import Idealize.ShloMosaic.PureOps.Ideal
import Idealize.ShloMosaic.Lib.ValueIdx
import Mathlib.Data.Finset.Fold

noncomputable section

open scoped BigOperators

namespace Cert.Attn

open Idealize.ShloMosaic Idealize.ShloMosaic.ValueIdx

/-- batch × position × feature -/
abbrev Tok : Shape := ⟨3, ![4, 2048, 1024]⟩
/-- output feature × input feature -/
abbrev Wgt : Shape := ⟨2, ![3072, 1024]⟩
abbrev Bias : Shape := ⟨1, ![3072]⟩
/-- batch × position × (query, key, value features side by side) -/
abbrev Fused : Shape := ⟨3, ![4, 2048, 3072]⟩
/-- batch × position × position -/
abbrev Pair : Shape := ⟨3, ![4, 2048, 2048]⟩

/-- The dense layer at sequence `n`, position `s`, output feature `f`: `∑ₑ X[n,s,e]·W[f,e] + b[f]`. -/
def dense (X : Tok.Idx → EReal) (W : Wgt.Idx → EReal) (b : Bias.Idx → EReal) (n : Fin 4) (s : Fin 2048) (f : Fin 3072) : EReal :=
  (∑ e : Fin 1024, X (ix3 n s e) * W (ix2 f e)) + b (ix1 f)

/-- The run of 1024 output features that starts at `off`, as an array of its own. -/
def run1024 (off : Nat) (hoff : off + 1024 ≤ 3072) (X : Tok.Idx → EReal) (W : Wgt.Idx → EReal) (b : Bias.Idx → EReal) :
    Tok.Idx → EReal :=
  fun t => dense X W b (t 0) (t 1) ⟨off + (t 2).val, by have h : (t 2).val < 1024 := (t 2).isLt; omega⟩

/-- Queries, keys and values: the three runs. -/
def queries (X : Tok.Idx → EReal) (W : Wgt.Idx → EReal) (b : Bias.Idx → EReal) : Tok.Idx → EReal := run1024 0 (by omega) X W b
def keys (X : Tok.Idx → EReal) (W : Wgt.Idx → EReal) (b : Bias.Idx → EReal) : Tok.Idx → EReal := run1024 1024 (by omega) X W b
def values (X : Tok.Idx → EReal) (W : Wgt.Idx → EReal) (b : Bias.Idx → EReal) : Tok.Idx → EReal := run1024 2048 (by omega) X W b

theorem run1024_ix3 (off : Nat) (hoff : off + 1024 ≤ 3072) (X : Tok.Idx → EReal) (W : Wgt.Idx → EReal) (b : Bias.Idx → EReal)
    (n : Fin 4) (s : Fin 2048) (d : Fin 1024) :
    run1024 off hoff X W b (ix3 n s d) = dense X W b n s ⟨off + d.val, by have := d.isLt; omega⟩ := rfl

/-- The same layer as the first kernel sees it: the 4·2048 positions as 8192 rows, the weights transposed. -/
abbrev Rows : Shape := ⟨2, ![8192, 1024]⟩
abbrev WgtT : Shape := ⟨2, ![1024, 3072]⟩
abbrev FusedRows : Shape := ⟨2, ![8192, 3072]⟩
def denseRows (A : Rows.Idx → EReal) (Wt : WgtT.Idx → EReal) (b : Bias.Idx → EReal) : FusedRows.Idx → EReal :=
  fun i => (∑ e : Fin 1024, A (ix2 (i 0) e) * Wt (ix2 e (i 1))) + b (ix1 (i 1))
theorem denseRows_ix2 (A : Rows.Idx → EReal) (Wt : WgtT.Idx → EReal) (b : Bias.Idx → EReal) (r : Fin 8192) (f : Fin 3072) :
    denseRows A Wt b (ix2 r f) = (∑ e : Fin 1024, A (ix2 r e) * Wt (ix2 e f)) + b (ix1 f) := rfl

/-- The factor 2⁻⁵ the scores carry, as the word the kernel spells. -/
def scale : EReal := Ideal.ofBits .f32 0x3D000000#32
/-- Where a row's running maximum starts, as the word both programs spell. -/
def start : EReal := Ideal.ofBits .f32 0xFF800000#32

variable (q k v : Tok.Idx → EReal)

/-- Position `i`'s score of position `j` in sequence `n`. -/
def score (n : Fin 4) (i j : Fin 2048) : EReal := (∑ d : Fin 1024, q (ix3 n i d) * k (ix3 n j d)) * scale
/-- The largest score of row `i`. -/
def peak (n : Fin 4) (i : Fin 2048) : EReal := (Finset.univ : Finset (Fin 2048)).fold max start (fun j => score q k n i j)
/-- The exponential of a score's distance below its row's largest. -/
def lifted (n : Fin 4) (i j : Fin 2048) : EReal := Ideal.exp (score q k n i j - peak q k n i)
/-- The row's total. -/
def mass (n : Fin 4) (i : Fin 2048) : EReal := ∑ j : Fin 2048, lifted q k n i j
/-- The attention weight. -/
def weight (n : Fin 4) (i j : Fin 2048) : EReal := Ideal.div (lifted q k n i j) (mass q k n i)
/-- The weighted sum of the values. -/
def mixed (n : Fin 4) (i : Fin 2048) (e : Fin 1024) : EReal := ∑ j : Fin 2048, weight q k n i j * v (ix3 n j e)

/-- The two results as arrays. -/
def weights : Pair.Idx → EReal := fun t => weight q k (t 0) (t 1) (t 2)
def outputs : Tok.Idx → EReal := fun t => mixed q k v (t 0) (t 1) (t 2)

theorem weights_ix3 (n : Fin 4) (i j : Fin 2048) : weights q k (ix3 n i j) = weight q k n i j := rfl
theorem outputs_ix3 (n : Fin 4) (i : Fin 2048) (e : Fin 1024) : outputs q k v (ix3 n i e) = mixed q k v n i e := rfl

/-! ## The constants, and the two laws -/

/-- `0x42000000` is 32. -/
theorem ofBits_32 : Ideal.ofBits .f32 0x42000000#32 = ((32 : ℝ) : EReal) := by
  simp [Ideal.ofBits, Ideal.ieee, -EReal.coe_mul]; norm_num

/-- `0x3D000000` is 1/32. -/
theorem scale_eq : scale = ((1 / 32 : ℝ) : EReal) := by
  unfold scale
  simp [Ideal.ofBits, Ideal.ieee, -EReal.coe_mul]; norm_num

/-- Dividing by 32 is multiplying by 2⁻⁵, at every extended real. -/
theorem div_32 (x : EReal) : Ideal.div x (Ideal.ofBits .f32 0x42000000#32) = x * scale := by
  rw [ofBits_32, scale_eq, Ideal.div_coe (by norm_num : (32 : ℝ) ≠ 0)]

/-- A running maximum is at least its start, so capping it from below by the start changes nothing. -/
theorem max_start_fold {ι : Type} (s : Finset ι) (b : EReal) (f : ι → EReal) : max b (s.fold max b f) = s.fold max b f :=
  max_eq_right ((Finset.le_fold_max b).mpr (Or.inl le_rfl))

end Cert.Attn

end
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.Region0.lean ====
/-
  The first kernel's result array after its 32 grid points: row block t of the 8192 × 3072 array is the product of row
  block t of the inputs with the whole transposed weight matrix, plus the bias along the rows; the blocks tile the array.
-/
import proofs.«141905_j64544768524377_1_alg».proof.Defs
import proofs.«141905_j64544768524377_1_alg».proof.Proof.Spec
import proofs.«141905_j64544768524377_1_alg».proof.Proof.Gen.KernelIdeal.Frame
import proofs.«141905_j64544768524377_1_alg».proof.Proof.LibPlainDot
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Dense

open Cert.KernelIdeal Cert.KernelIdeal.Gen

variable (V : (c : Dev nD) → (b : Ref sig .tc) → Buf (Elt Ideal) ((c : Thread nD τ).loc b))

/-! ## The product's dimension numbers, coordinate by coordinate

The left operand is read at the entry's row and the summation index, the right one at the summation index and the
entry's column. -/

theorem lhs_row (i : S256x3072.Idx) (q : dot_S256x1024_S1024x3072_S256x3072_1_0_0_1_n_n.contr.Idx) :
    (dot_S256x1024_S1024x3072_S256x3072_1_0_0_1_n_n.lhsIdx i q 0).val = (i 0).val := by
  unfold DotDims.lhsIdx
  rw [dif_neg (show ¬(0 : Fin S256x1024.rank) ∈ dot_S256x1024_S1024x3072_S256x3072_1_0_0_1_n_n.lhsBatch by decide), dif_pos (show (0 : Fin S256x1024.rank) ∈ dot_S256x1024_S1024x3072_S256x3072_1_0_0_1_n_n.lhsNonContracting by decide)]
  rfl

theorem lhs_sum (i : S256x3072.Idx) (q : dot_S256x1024_S1024x3072_S256x3072_1_0_0_1_n_n.contr.Idx) :
    (dot_S256x1024_S1024x3072_S256x3072_1_0_0_1_n_n.lhsIdx i q 1).val = (q ⟨0, by decide⟩).val :=
  dot_S256x1024_S1024x3072_S256x3072_1_0_0_1_n_n.lhsIdx_val_of_single rfl i q

theorem rhs_sum (i : S256x3072.Idx) (q : dot_S256x1024_S1024x3072_S256x3072_1_0_0_1_n_n.contr.Idx) :
    (dot_S256x1024_S1024x3072_S256x3072_1_0_0_1_n_n.rhsIdx i q 0).val = (q ⟨0, by decide⟩).val :=
  dot_S256x1024_S1024x3072_S256x3072_1_0_0_1_n_n.rhsIdx_val_of_single rfl i q

theorem rhs_col (i : S256x3072.Idx) (q : dot_S256x1024_S1024x3072_S256x3072_1_0_0_1_n_n.contr.Idx) :
    (dot_S256x1024_S1024x3072_S256x3072_1_0_0_1_n_n.rhsIdx i q 1).val = (i 1).val := by
  unfold DotDims.rhsIdx
  rw [dif_neg (show ¬(1 : Fin S1024x3072.rank) ∈ dot_S256x1024_S1024x3072_S256x3072_1_0_0_1_n_n.rhsBatch by decide), dif_pos (show (1 : Fin S1024x3072.rank) ∈ dot_S256x1024_S1024x3072_S256x3072_1_0_0_1_n_n.rhsNonContracting by decide)]
  rfl

/-! ## What one grid point computes, entry by entry -/

/-- Entry `(p, f)` of the block a grid point stores: row `p` of its 256 input rows against column `f` of the weights,
    plus the bias at `f`. The changes of number format do nothing on the extended reals, and the product starts from
    zeros. -/
theorem block_entry (x0 : Vec Ideal S256x1024 .f32) (x1 : Vec Ideal S1024x3072 .f32) (x2 : Vec Ideal S3072 .f32)
    (p : Fin 256) (f : Fin 3072) :
    k0_pay1 x0 x1 x2 (ix2 p f) = (∑ e : Fin 1024, x0 (ix2 p e) * x1 (ix2 e f)) + x2 (ix1 f) := by
  unfold k0_pay1
  simp only [shapeCast_self]
  rw [truncf_apply, addf_apply]
  refine congrArg₂ (· + ·) ?_ ?_
  · refine (Ideal.matmul_constant_zero_apply dot_S256x1024_S1024x3072_S256x3072_1_0_0_1_n_n none _ _ (ix2 p f)).trans ?_
    exact Cert.LibPlainDot.sum_plain dot_S256x1024_S1024x3072_S256x3072_1_0_0_1_n_n rfl rfl lhs_row lhs_sum rhs_sum rhs_col
      (fun i => x0 i) (fun i => x1 i) p f
  · exact Cert.LibPlainDot.bias_row_apply x2 shapeCasts_S3072_S1x3072 broadcasts_S1x3072_S256x3072 p f

/-! ## Where a grid point's blocks sit in the arrays -/

theorem zeros2 : (![0, 0] : Fin 2 → Nat) = fun _ => 0 := funext fun a => by fin_cases a <;> rfl
theorem zeros1 : (![0] : Fin 1 → Nat) = fun _ => 0 := funext fun a => by fin_cases a <;> rfl

/-- The block indices of the four windows at grid point `t`: the input rows and the result rows move with the point,
    the weights and the bias stay whole. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem point_lt (t : Fin cfg0.N) : t.val < 32 := by
  have h : t.val < cfg0.N := t.isLt
  have hN : cfg0.N = 32 := N_0
  omega

/-- Row `p` of the input block at point `t` is row `256 t + p` of the input array. -/
theorem input_rows (c : Dev nD) (t : Fin cfg0.N) (p : Fin 256) (e : Fin 1024) (r : Fin 8192) (hr : r.val = 256 * t.val + p.val) :
    (iblk0 (F := Ideal) V c 0 t : Vec Ideal S256x1024 .f32) (ix2 p e) = (V c main_v0 : S8192x1024.Idx → EReal) (ix2 r e) := by
  obtain ⟨e0, e1, -⟩ := block_indices t
  unfold iblk0
  rw [View.read_apply]
  show V c main_v0 _ = V c main_v0 _
  refine congrArg (V c main_v0) (funext fun a => Fin.ext ?_)
  match a with
  | ⟨0, _⟩ => show win0_0.index t (0 : Fin 2) * 256 + 1 * p.val = r.val; rw [e0, hr]; omega
  | ⟨1, _⟩ => show win0_0.index t (1 : Fin 2) * 1024 + 1 * e.val = e.val; rw [e1]; omega

/-- Every point sees the whole weight matrix. -/
theorem weights_whole (c : Dev nD) (t : Fin cfg0.N) (e : Fin 1024) (f : Fin 3072) :
    (iblk0 (F := Ideal) V c 1 t : Vec Ideal S1024x3072 .f32) (ix2 e f) = (V c main_v1 : S1024x3072.Idx → EReal) (ix2 e f) := by
  obtain ⟨-, -, e0, e1, -⟩ := block_indices t
  unfold iblk0
  rw [View.read_apply]
  show V c main_v1 _ = V c main_v1 _
  refine congrArg (V c main_v1) (funext fun a => Fin.ext ?_)
  match a with
  | ⟨0, _⟩ => show win0_1.index t (0 : Fin 2) * 1024 + 1 * e.val = e.val; rw [e0]; omega
  | ⟨1, _⟩ => show win0_1.index t (1 : Fin 2) * 3072 + 1 * f.val = f.val; rw [e1]; omega

/-- Every point sees the whole bias. -/
theorem bias_whole (c : Dev nD) (t : Fin cfg0.N) (f : Fin 3072) :
    (iblk0 (F := Ideal) V c 2 t : Vec Ideal S3072 .f32) (ix1 f) = (V c main_arg2 : S3072.Idx → EReal) (ix1 f) := by
  obtain ⟨-, -, -, -, e0, -⟩ := block_indices t
  unfold iblk0
  rw [View.read_apply]
  show V c main_arg2 _ = V c main_arg2 _
  refine congrArg (V c main_arg2) (funext fun a => Fin.ext ?_)
  match a with
  | ⟨0, _⟩ => show win0_2.index t (0 : Fin 1) * 3072 + 1 * f.val = f.val; rw [e0]; omega

/-- Entry `(p, f)` of the result block at point `t` is entry `(256 t + p, f)` of the result array. -/
theorem result_rows_at (t : Fin cfg0.N) (p : Fin 256) (f : Fin 3072) (r : Fin 8192) (hr : r.val = 256 * t.val + p.val) :
    (((cfg0.win 3).blk t).view.emb (ix2 p f) : S8192x3072.Idx) = ix2 r f := by
  obtain ⟨-, -, -, -, -, e0, e1⟩ := block_indices t
  refine funext fun a => Fin.ext ?_
  match a with
  | ⟨0, _⟩ => show win0_3.index t (0 : Fin 2) * 256 + 1 * p.val = r.val; rw [e0, hr]; omega
  | ⟨1, _⟩ => show win0_3.index t (1 : Fin 2) * 3072 + 1 * f.val = f.val; rw [e1]; omega

/-! ## What a grid point writes back -/

/-- The dense layer of the arrays the region finds, as contents of the result array. -/
abbrev target (c : Dev nD) : Buf (Elt Ideal) ((c : Thread nD τ).loc main_v2) :=
  (Cert.Attn.denseRows (V c main_v0) (V c main_v1) (V c main_arg2) : Buf (Elt Ideal) ((c : Thread nD τ).loc main_v2))

/-- Point `t` writes back rows `256 t … 256 t + 255` of the dense layer. -/
theorem written_back (c : Dev nD) (t : Fin cfg0.N) :
    (dat0 (F := Ideal) V c).flushed 3 t = ((cfg0.win 3).blk t).view.read (Elt Ideal) (target V c) := by
  show (cfg0.win 3).cut (grid0.coords t) ((dat0 (F := Ideal) V c).after 3 t) = _
  rw [after0_3]
  unfold out0_3
  rw [View.canon_unit_zero zeros2]
  simp only [View.ld_unit_zero (S := S256x1024) zeros2, View.ld_unit_zero (S := S1024x3072) zeros2, View.ld_unit_zero (S := S3072) zeros1]
  funext j
  obtain ⟨p, f, rfl⟩ : ∃ (p : Fin 256) (f : Fin 3072), j = ix2 p f := ⟨j 0, j 1, eq_ix2 j⟩
  have ht := point_lt t
  have hp : p.val < 256 := p.isLt
  show k0_pay1 (iblk0 (F := Ideal) V c 0 t) (iblk0 (F := Ideal) V c 1 t) (iblk0 (F := Ideal) V c 2 t) (ix2 p f)
    = Cert.Attn.denseRows (V c main_v0) (V c main_v1) (V c main_arg2) (((cfg0.win 3).blk t).view.emb (ix2 p f))
  refine (block_entry (iblk0 (F := Ideal) V c 0 t) (iblk0 (F := Ideal) V c 1 t) (iblk0 (F := Ideal) V c 2 t) p f).trans ?_
  rw [result_rows_at t p f ⟨256 * t.val + p.val, by omega⟩ rfl, Cert.Attn.denseRows_ix2]
  refine congrArg₂ (· + ·) (Finset.sum_congr rfl fun e _ => congrArg₂ (· * ·) ?_ ?_) ?_
  · exact input_rows V c t p e ⟨256 * t.val + p.val, by omega⟩ rfl
  · exact weights_whole V c t e f
  · exact bias_whole V c t f

/-! ## The blocks tile the array -/

/-- An entry of the result array is in point `t`'s block exactly when its coordinates are in the block's ranges. -/
theorem in_block (t : Fin cfg0.N) (i : S8192x3072.Idx) :
    i ∈ ((cfg0.win 3).blk t).view.set ↔ ∀ a : Fin 2, win0_3.index t a * S256x3072.size a ≤ (i a).val ∧ (i a).val < win0_3.index t a * S256x3072.size a + S256x3072.size a := by
  show i ∈ ((View.whole main_v2).slice (win0_3.rect t)).set ↔ _
  rw [View.set_slice_whole, Rect.mem_set_unit]
  exact Iff.rfl

/-- Row `r` is written by point `r / 256`. -/
theorem tiled (i : S8192x3072.Idx) : ∃ t : Fin cfg0.N, (cfg0.win 3).flush t = true ∧ i ∈ ((cfg0.win 3).blk t).view.set := by
  have h0 : (i 0).val < 8192 := (i 0).isLt
  have h1 : (i 1).val < 3072 := (i 1).isLt
  have hN : cfg0.N = 32 := N_0
  refine ⟨⟨(i 0).val / 256, by rw [hN]; omega⟩, flush0_3 _, ?_⟩
  rw [in_block]
  obtain ⟨-, -, -, -, -, e0, e1⟩ := block_indices ⟨(i 0).val / 256, by rw [hN]; omega⟩
  intro a
  match a with
  | ⟨0, _⟩ =>
    show win0_3.index _ (0 : Fin 2) * 256 ≤ (i 0).val ∧ (i 0).val < win0_3.index _ (0 : Fin 2) * 256 + 256
    rw [e0]; show (i 0).val / 256 * 256 ≤ (i 0).val ∧ (i 0).val < (i 0).val / 256 * 256 + 256; omega
  | ⟨1, _⟩ =>
    show win0_3.index _ (1 : Fin 2) * 3072 ≤ (i 1).val ∧ (i 1).val < win0_3.index _ (1 : Fin 2) * 3072 + 3072
    rw [e1]; omega

/-- Whatever the three input arrays hold when the region is entered, the result array ends at the dense layer of them. -/
theorem result_rows (c : Dev nD) :
    (dat0 (F := Ideal) V c).arrAt 3 cfg0.N
      = (Cert.Attn.denseRows (V c main_v0) (V c main_v1) (V c main_arg2) : Buf (Elt Ideal) ((c : Thread nD τ).loc main_v2)) :=
  (dat0 (F := Ideal) V c).arrAt_eq_of_cover 3 (target V c) (fun t _ => written_back V c t) tiled

end Cert.KernelIdeal.Dense

end
-- ==== Proof.Region1Tiles.lean ====
/-
  How the second kernel's 32 grid points tile its arrays: point t works on sequence t / 8 and on the 256 positions from
  256·(t mod 8); it reads those rows of the queries and the whole sequence's keys and values, and writes those rows of
  both results, so the points' blocks cover both result arrays.
-/
import proofs.«141905_j64544768524377_1_alg».proof.Defs
import proofs.«141905_j64544768524377_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen

/-- The sequence a grid point works on, -/
def seqOf (t : Fin cfg1.N) : Fin 4 := ⟨t.val / 8, by have h : t.val < 32 := N_1 ▸ t.isLt; omega⟩
/-- and the position its row p is. -/
def rowOf (t : Fin cfg1.N) (p : Fin 256) : Fin 2048 := ⟨256 * (t.val % 8) + p.val, by have := p.isLt; omega⟩

/-! ## Which block each window is on at point t -/

/-- The query window is on block (t / 8, t mod 8, 0), -/
theorem q_index : ∀ t : Fin cfg1.N,
    win1_0.index t (0 : Fin 3) = t.val / 8 ∧ win1_0.index t (1 : Fin 3) = t.val % 8 ∧ win1_0.index t (2 : Fin 3) = 0 :=
  (by decide +kernel : ∀ t : Fin grid1.N, _)

/-- the key window on block (t / 8, 0, 0), -/
theorem k_index : ∀ t : Fin cfg1.N,
    win1_1.index t (0 : Fin 3) = t.val / 8 ∧ win1_1.index t (1 : Fin 3) = 0 ∧ win1_1.index t (2 : Fin 3) = 0 :=
  (by decide +kernel : ∀ t : Fin grid1.N, _)

/-- the value window on block (t / 8, 0, 0), -/
theorem v_index : ∀ t : Fin cfg1.N,
    win1_2.index t (0 : Fin 3) = t.val / 8 ∧ win1_2.index t (1 : Fin 3) = 0 ∧ win1_2.index t (2 : Fin 3) = 0 :=
  (by decide +kernel : ∀ t : Fin grid1.N, _)

/-- the output window on block (t / 8, t mod 8, 0), -/
theorem out_index : ∀ t : Fin cfg1.N,
    win1_3.index t (0 : Fin 3) = t.val / 8 ∧ win1_3.index t (1 : Fin 3) = t.val % 8 ∧ win1_3.index t (2 : Fin 3) = 0 :=
  (by decide +kernel : ∀ t : Fin grid1.N, _)

/-- and the weights window on block (t / 8, t mod 8, 0). -/
theorem weights_index : ∀ t : Fin cfg1.N,
    win1_4.index t (0 : Fin 3) = t.val / 8 ∧ win1_4.index t (1 : Fin 3) = t.val % 8 ∧ win1_4.index t (2 : Fin 3) = 0 :=
  (by decide +kernel : ∀ t : Fin grid1.N, _)

variable (V : (c : Dev nD) → (b : Ref sig .tc) → Buf (Elt Ideal) ((c : Thread nD τ).loc b))

/-- The query block at point t, row p, is the query array at its sequence and position. -/
theorem q_block (c : Dev nD) (t : Fin cfg1.N) (p : Fin 256) (d : Fin 1024) :
    (iblk1 V c 0 t : S1x256x1024.Idx → EReal) (ix3 (0 : Fin 1) p d)
      = (V c main_v4 : S4x2048x1024.Idx → EReal) (ix3 (seqOf t) (rowOf t p) d) := by
  obtain ⟨h0, h1, h2⟩ := q_index t
  unfold iblk1
  rw [View.read_apply]
  show V c main_v4 _ = V c main_v4 _
  congr 1
  funext a
  apply Fin.ext
  match a with
  | ⟨0, _⟩ => show win1_0.index t (0 : Fin 3) * 1 + 1 * (0 : Fin 1).val = t.val / 8; rw [h0]; simp
  | ⟨1, _⟩ => show win1_0.index t (1 : Fin 3) * 256 + 1 * p.val = 256 * (t.val % 8) + p.val; rw [h1]; omega
  | ⟨2, _⟩ => show win1_0.index t (2 : Fin 3) * 1024 + 1 * d.val = d.val; rw [h2]; omega

/-- The key block at point t is the whole of its sequence's keys. -/
theorem k_block (c : Dev nD) (t : Fin cfg1.N) (j : Fin 2048) (d : Fin 1024) :
    (iblk1 V c 1 t : S1x2048x1024.Idx → EReal) (ix3 (0 : Fin 1) j d)
      = (V c main_v5 : S4x2048x1024.Idx → EReal) (ix3 (seqOf t) j d) := by
  obtain ⟨h0, h1, h2⟩ := k_index t
  unfold iblk1
  rw [View.read_apply]
  show V c main_v5 _ = V c main_v5 _
  congr 1
  funext a
  apply Fin.ext
  match a with
  | ⟨0, _⟩ => show win1_1.index t (0 : Fin 3) * 1 + 1 * (0 : Fin 1).val = t.val / 8; rw [h0]; simp
  | ⟨1, _⟩ => show win1_1.index t (1 : Fin 3) * 2048 + 1 * j.val = j.val; rw [h1]; omega
  | ⟨2, _⟩ => show win1_1.index t (2 : Fin 3) * 1024 + 1 * d.val = d.val; rw [h2]; omega

/-- The value block at point t is the whole of its sequence's values. -/
theorem v_block (c : Dev nD) (t : Fin cfg1.N) (j : Fin 2048) (d : Fin 1024) :
    (iblk1 V c 2 t : S1x2048x1024.Idx → EReal) (ix3 (0 : Fin 1) j d)
      = (V c main_v6 : S4x2048x1024.Idx → EReal) (ix3 (seqOf t) j d) := by
  obtain ⟨h0, h1, h2⟩ := v_index t
  unfold iblk1
  rw [View.read_apply]
  show V c main_v6 _ = V c main_v6 _
  congr 1
  funext a
  apply Fin.ext
  match a with
  | ⟨0, _⟩ => show win1_2.index t (0 : Fin 3) * 1 + 1 * (0 : Fin 1).val = t.val / 8; rw [h0]; simp
  | ⟨1, _⟩ => show win1_2.index t (1 : Fin 3) * 2048 + 1 * j.val = j.val; rw [h1]; omega
  | ⟨2, _⟩ => show win1_2.index t (2 : Fin 3) * 1024 + 1 * d.val = d.val; rw [h2]; omega

/-- Where row p, feature e of the output block written at point t lies in the output array. -/
theorem out_emb (t : Fin cfg1.N) (p : Fin 256) (e : Fin 1024) :
    (((cfg1.win 3).blk t).view.emb (ix3 (0 : Fin 1) p e) : S4x2048x1024.Idx) = ix3 (seqOf t) (rowOf t p) e := by
  obtain ⟨h0, h1, h2⟩ := out_index t
  funext a
  apply Fin.ext
  match a with
  | ⟨0, _⟩ => show win1_3.index t (0 : Fin 3) * 1 + 1 * (0 : Fin 1).val = t.val / 8; rw [h0]; simp
  | ⟨1, _⟩ => show win1_3.index t (1 : Fin 3) * 256 + 1 * p.val = 256 * (t.val % 8) + p.val; rw [h1]; omega
  | ⟨2, _⟩ => show win1_3.index t (2 : Fin 3) * 1024 + 1 * e.val = e.val; rw [h2]; omega

/-- Where row p, column j of the weights block written at point t lies in the weights array. -/
theorem weights_emb (t : Fin cfg1.N) (p : Fin 256) (j : Fin 2048) :
    (((cfg1.win 4).blk t).view.emb (ix3 (0 : Fin 1) p j) : S4x2048x2048.Idx) = ix3 (seqOf t) (rowOf t p) j := by
  obtain ⟨h0, h1, h2⟩ := weights_index t
  funext a
  apply Fin.ext
  match a with
  | ⟨0, _⟩ => show win1_4.index t (0 : Fin 3) * 1 + 1 * (0 : Fin 1).val = t.val / 8; rw [h0]; simp
  | ⟨1, _⟩ => show win1_4.index t (1 : Fin 3) * 256 + 1 * p.val = 256 * (t.val % 8) + p.val; rw [h1]; omega
  | ⟨2, _⟩ => show win1_4.index t (2 : Fin 3) * 2048 + 1 * j.val = j.val; rw [h2]; omega

/-- Every entry of the output array lies in the block some point writes back, -/
theorem out_cover (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  have hN : cfg1.N = 32 := N_1
  obtain ⟨t, ht⟩ : ∃ t : Fin cfg1.N, t.val = 8 * (i 0).val + (i 1).val / 256 := ⟨⟨_, by rw [hN]; omega⟩, rfl⟩
  obtain ⟨h0, h1, h2⟩ := out_index t
  refine ⟨t, flush1_3 t, ?_⟩
  show i ∈ ((View.whole main_v7_0).slice (win1_3.rect t)).set
  rw [View.set_slice_whole, Rect.mem_set_unit]
  intro a
  match a with
  | ⟨0, _⟩ => show win1_3.index t (0 : Fin 3) * 1 ≤ (i 0).val ∧ (i 0).val < win1_3.index t (0 : Fin 3) * 1 + 1; rw [h0, ht]; omega
  | ⟨1, _⟩ => show win1_3.index t (1 : Fin 3) * 256 ≤ (i 1).val ∧ (i 1).val < win1_3.index t (1 : Fin 3) * 256 + 256; rw [h1, ht]; omega
  | ⟨2, _⟩ => show win1_3.index t (2 : Fin 3) * 1024 ≤ (i 2).val ∧ (i 2).val < win1_3.index t (2 : Fin 3) * 1024 + 1024; rw [h2]; omega

/-- and so does every entry of the weights array. -/
theorem weights_cover (i : S4x2048x2048.Idx) :
    ∃ t : Fin cfg1.N, (cfg1.win 4).flush t = true ∧ i ∈ ((cfg1.win 4).blk t).view.set := by
  have hi0 : (i 0).val < 4 := (i 0).isLt
  have hi1 : (i 1).val < 2048 := (i 1).isLt
  have hi2 : (i 2).val < 2048 := (i 2).isLt
  have hN : cfg1.N = 32 := N_1
  obtain ⟨t, ht⟩ : ∃ t : Fin cfg1.N, t.val = 8 * (i 0).val + (i 1).val / 256 := ⟨⟨_, by rw [hN]; omega⟩, rfl⟩
  obtain ⟨h0, h1, h2⟩ := weights_index t
  refine ⟨t, flush1_4 t, ?_⟩
  show i ∈ ((View.whole main_v7_1).slice (win1_4.rect t)).set
  rw [View.set_slice_whole, Rect.mem_set_unit]
  intro a
  match a with
  | ⟨0, _⟩ => show win1_4.index t (0 : Fin 3) * 1 ≤ (i 0).val ∧ (i 0).val < win1_4.index t (0 : Fin 3) * 1 + 1; rw [h0, ht]; omega
  | ⟨1, _⟩ => show win1_4.index t (1 : Fin 3) * 256 ≤ (i 1).val ∧ (i 1).val < win1_4.index t (1 : Fin 3) * 256 + 256; rw [h1, ht]; omega
  | ⟨2, _⟩ => show win1_4.index t (2 : Fin 3) * 2048 ≤ (i 2).val ∧ (i 2).val < win1_4.index t (2 : Fin 3) * 2048 + 2048; rw [h2]; omega

/-- Every index of a block that holds one sequence is (0, p, d): its leading coordinate has nowhere else to be. -/
theorem eq_ix3_one {n1 n2 : Nat} (y : (⟨3, ![1, n1, n2]⟩ : Shape).Idx) : y = ix3 (0 : Fin 1) (y 1) (y 2) := by
  funext a
  match a with
  | ⟨0, h⟩ =>
    apply Fin.ext
    have h1 : (y ⟨0, h⟩).val < 1 := (y ⟨0, h⟩).isLt
    show (y ⟨0, h⟩).val = 0
    omega
  | ⟨1, _⟩ => rfl
  | ⟨2, _⟩ => rfl

/-- So a block's index splits as a row and a feature, the form the lemmas above are stated at. -/
example (y : S1x256x1024.Idx) : ∃ (p : Fin 256) (d : Fin 1024), y = ix3 (0 : Fin 1) p d := ⟨y 1, y 2, eq_ix3_one y⟩

end Cert.KernelIdeal.Tiles

end
-- ==== Proof.Region1.lean ====
/-
  The second kernel's two result arrays after its 4 × 8 grid points: point (n, t) takes rows 256t … 256t+255 of sequence
  n's queries and all of its keys and values, and writes those rows of the attention weights and of the weighted sums of
  the values; the blocks tile both arrays.
-/
import proofs.«141905_j64544768524377_1_alg».proof.Defs
import proofs.«141905_j64544768524377_1_alg».proof.Proof.Spec
import proofs.«141905_j64544768524377_1_alg».proof.Proof.Gen.KernelIdeal.Frame
import proofs.«141905_j64544768524377_1_alg».proof.Proof.LibPlainDot
import proofs.«141905_j64544768524377_1_alg».proof.Proof.Region1Tiles
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Softmax

open Cert.KernelIdeal Cert.KernelIdeal.Gen

variable (V : (c : Dev nD) → (b : Ref sig .tc) → Buf (Elt Ideal) ((c : Thread nD τ).loc b))

/-! ## Layout and contraction facts -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The contraction sum of an `M×K` by `N×K` product (rows against rows) at entry `(p, j)` is `∑ₖ l(p,k)·r(j,k)`. -/
theorem sum_rows {M K N : Nat} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (l : (⟨2, ![M, K]⟩ : Shape).Idx → EReal) (r : (⟨2, ![N, K]⟩ : Shape).Idx → EReal) (p : Fin M) (j : Fin N) :
    ∑ q : D.contr.Idx, l (D.lhsIdx (ix2 p j) q) * r (D.rhsIdx (ix2 p j) q) = ∑ k : Fin K, l (ix2 p k) * r (ix2 j k) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 j k := funext fun a => Fin.ext (by
    match a with
    | ⟨0, _⟩ => exact hr0 _ _
    | ⟨1, _⟩ => exact (hr1 _ _).trans hk)
  rw [el, er]

/-- The query-by-key product's dimension numbers, axis by axis: the left operand is read at the entry's row and the
    contraction coordinate, the right operand at the entry's column and the contraction coordinate. -/
theorem qk_lhs_0 (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem qk_lhs_1 (i : S256x2048.Idx) (q : dot_S256x1024_S2048x1024_S256x2048_1_1_0_0_n_n.contr.Idx) :
    (dot_S256x1024_S2048x1024_S256x2048_1_1_0_0_n_n.lhsIdx i q 1).val = (q ⟨0, by decide⟩).val :=
  dot_S256x1024_S2048x1024_S256x2048_1_1_0_0_n_n.lhsIdx_val_of_single rfl i q
theorem qk_rhs_0 (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem qk_rhs_1 (i : S256x2048.Idx) (q : dot_S256x1024_S2048x1024_S256x2048_1_1_0_0_n_n.contr.Idx) :
    (dot_S256x1024_S2048x1024_S256x2048_1_1_0_0_n_n.rhsIdx i q 1).val = (q ⟨0, by decide⟩).val :=
  dot_S256x1024_S2048x1024_S256x2048_1_1_0_0_n_n.rhsIdx_val_of_single rfl i q

/-- The weights-by-values product's dimension numbers, axis by axis (plain rows by columns). -/
theorem pv_lhs_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem pv_lhs_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem pv_rhs_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem pv_rhs_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-! ## The body's arithmetic at an entry -/

/-- The inserted index of a row reduction of a `256 × 2048` vector: row `p`, column `k`. -/
theorem lift_row (p : Fin 256) (k : Fin 2048) :
    reduces_S256x2048_S256.lift (ix1 p) k = ix2 p k :=
  funext fun a => Fin.ext (by
    match a with
    | ⟨0, _⟩ => rfl
    | ⟨1, _⟩ => rfl)

/-- A row's maximum, from the word of `-∞`: the fold of `max` over the row. -/
theorem rowMax_apply (v : FVec Ideal S256x2048 .f32) (p : Fin 256) :
    multiReduction (F := Ideal) .maximumf [1] S256 v 0xFF800000#32 reduces_S256x2048_S256 (.inl rfl) rfl (ix1 p)
      = (Finset.univ : Finset (Fin 2048)).fold max Cert.Attn.start (fun j => v (ix2 p j)) := by
  refine (Ideal.multiReduction_maximumf_single v 0xFF800000#32 reduces_S256x2048_S256 (.inl rfl) rfl (ix1 p)).trans ?_
  show (Finset.univ : Finset (Fin 2048)).fold max Cert.Attn.start (v ∘ reduces_S256x2048_S256.lift (ix1 p)) = _
  have e : (v ∘ reduces_S256x2048_S256.lift (ix1 p)) = fun j : Fin 2048 => v (ix2 p j) :=
    funext fun k => congrArg v (lift_row p k)
  exact congrArg (fun f : Fin 2048 → EReal => (Finset.univ : Finset (Fin 2048)).fold max Cert.Attn.start f) e

/-- A row's total. -/
theorem rowSum_apply (v : FVec Ideal S256x2048 .f32) (p : Fin 256) :
    multiReduction (F := Ideal) .add [1] S256 v 0x00000000#32 reduces_S256x2048_S256 (.inl rfl) rfl (ix1 p)
      = ∑ j : Fin 2048, v (ix2 p j) := by
  refine (Ideal.multiReduction_add_single v 0x00000000#32 reduces_S256x2048_S256 (.inl rfl) rfl (ix1 p)).trans ?_
  show ∑ k : Fin 2048, v (reduces_S256x2048_S256.lift (ix1 p) k) = _
  exact Finset.sum_congr rfl fun k _ => congrArg v (lift_row p k)

/-- The scaled scores of a block of queries against a sequence's keys, as the body computes them. -/
def blockScores (x0 : Vec Ideal S1x256x1024 .bf16) (x1 : Vec Ideal S1x2048x1024 .bf16) : FVec Ideal S256x2048 .f32 :=
  mulf (matmul dot_S256x1024_S2048x1024_S256x2048_1_1_0_0_n_n none
      (shapeCast S256x1024 x0 shapeCasts_S1x256x1024_S256x1024 : FVec Ideal S256x1024 .bf16)
      (shapeCast S2048x1024 x1 shapeCasts_S1x2048x1024_S2048x1024 : FVec Ideal S2048x1024 .bf16)
      (constant (F := Ideal) S256x2048 .f32 0x00000000#32))
    (broadcast S256x2048 (Scalar.ofBits (F := Ideal) .f32 0x3D000000#32))

/-- The row-wise softmax as the body spells it: subtract the row's maximum, exponentiate, divide by the row's total. -/
def rowSoftmax (v8 : FVec Ideal S256x2048 .f32) : FVec Ideal S256x2048 .f32 :=
  have v9 : FVec Ideal S256 .f32 := multiReduction .maximumf [1] S256 v8 0xFF800000#32 reduces_S256x2048_S256 (.inl rfl) rfl
  have v10 : FVec Ideal S256x1 .f32 := shapeCast S256x1 v9 shapeCasts_S256_S256x1
  have v11 : FVec Ideal S256x2048 .f32 := broadcastTo S256x2048 v10 broadcasts_S256x1_S256x2048
  have v12 : FVec Ideal S256x2048 .f32 := subf v8 v11
  have v13 : FVec Ideal S256x2048 .f32 := exp v12
  have v14 : FVec Ideal S256 .f32 := multiReduction .add [1] S256 v13 0x00000000#32 reduces_S256x2048_S256 (.inl rfl) rfl
  have v15 : FVec Ideal S256x1 .f32 := shapeCast S256x1 v14 shapeCasts_S256_S256x1
  have v16 : FVec Ideal S256x2048 .f32 := broadcastTo S256x2048 v15 broadcasts_S256x1_S256x2048
  divf v13 v16

/-- The body's weights are the row-wise softmax of its scaled scores. -/
theorem pay1_eq (x0 : Vec Ideal S1x256x1024 .bf16) (x1 : Vec Ideal S1x2048x1024 .bf16) :
    k1_pay1 (F := Ideal) x0 x1 = rowSoftmax (blockScores x0 x1) := rfl

/-- The exponential of an entry's distance below its row's maximum. -/
theorem lifted_apply (v : FVec Ideal S256x2048 .f32) (p : Fin 256) (j : Fin 2048) :
    exp (subf v (broadcastTo S256x2048 (shapeCast S256x1
        (multiReduction (F := Ideal) .maximumf [1] S256 v 0xFF800000#32 reduces_S256x2048_S256 (.inl rfl) rfl)
        shapeCasts_S256_S256x1) broadcasts_S256x1_S256x2048)) (ix2 p j)
      = Ideal.exp (v (ix2 p j) - (Finset.univ : Finset (Fin 2048)).fold max Cert.Attn.start (fun j' => v (ix2 p j'))) := by
  show Ideal.exp (v (ix2 p j) - broadcastTo S256x2048 _ broadcasts_S256x1_S256x2048 (ix2 p j)) = _
  rw [Cert.LibPlainDot.broadcastTo_a1_ab_apply, shapeCast_a_a1_apply, rowMax_apply]

/-- The softmax at entry `(p, j)`. -/
theorem rowSoftmax_apply (v : FVec Ideal S256x2048 .f32) (p : Fin 256) (j : Fin 2048) :
    rowSoftmax v (ix2 p j)
      = Ideal.div (Ideal.exp (v (ix2 p j) - (Finset.univ : Finset (Fin 2048)).fold max Cert.Attn.start (fun j' => v (ix2 p j'))))
          (∑ j'' : Fin 2048, Ideal.exp (v (ix2 p j'') - (Finset.univ : Finset (Fin 2048)).fold max Cert.Attn.start (fun j' => v (ix2 p j')))) := by
  unfold rowSoftmax
  show Ideal.div _ (broadcastTo S256x2048 _ broadcasts_S256x1_S256x2048 (ix2 p j)) = _
  rw [Cert.LibPlainDot.broadcastTo_a1_ab_apply, shapeCast_a_a1_apply, rowSum_apply, lifted_apply]
  refine congrArg _ (Finset.sum_congr rfl fun j'' _ => ?_)
  rw [lifted_apply]

section AtAnEntry

variable (Q K Vv : Cert.Attn.Tok.Idx → EReal)

/-- A block's scaled score at `(p, j)` is the specification's, when the block's query rows are rows `r p` of sequence
    `n`'s queries and its key rows are sequence `n`'s keys. -/
theorem blockScores_apply (x0 : Vec Ideal S1x256x1024 .bf16) (x1 : Vec Ideal S1x2048x1024 .bf16)
    (n : Fin 4) (r : Fin 256 → Fin 2048)
    (hq : ∀ (p : Fin 256) (d : Fin 1024), x0 (ix3 (0 : Fin 1) p d) = Q (ix3 n (r p) d))
    (hk : ∀ (j : Fin 2048) (d : Fin 1024), x1 (ix3 (0 : Fin 1) j d) = K (ix3 n j d))
    (p : Fin 256) (j : Fin 2048) :
    blockScores x0 x1 (ix2 p j) = Cert.Attn.score Q K n (r p) j := by
  unfold blockScores Cert.Attn.score
  rw [mulf_apply, broadcast_apply]
  refine congrArg (· * Cert.Attn.scale) ?_
  simp only [matmul]
  rw [Ideal.matmul_constant_zero_apply]
  refine (sum_rows dot_S256x1024_S2048x1024_S256x2048_1_1_0_0_n_n rfl rfl qk_lhs_0 qk_lhs_1 qk_rhs_0 qk_rhs_1 _ _ p j).trans ?_
  refine Finset.sum_congr rfl fun d _ => ?_
  rw [shapeCast_1ab_ab_apply, shapeCast_1ab_ab_apply, hq, hk]

/-- The body's weight at `(p, j)` is the specification's attention weight. -/
theorem pay1_apply (x0 : Vec Ideal S1x256x1024 .bf16) (x1 : Vec Ideal S1x2048x1024 .bf16)
    (n : Fin 4) (r : Fin 256 → Fin 2048)
    (hq : ∀ (p : Fin 256) (d : Fin 1024), x0 (ix3 (0 : Fin 1) p d) = Q (ix3 n (r p) d))
    (hk : ∀ (j : Fin 2048) (d : Fin 1024), x1 (ix3 (0 : Fin 1) j d) = K (ix3 n j d))
    (p : Fin 256) (j : Fin 2048) :
    k1_pay1 (F := Ideal) x0 x1 (ix2 p j) = Cert.Attn.weight Q K n (r p) j := by
  rw [pay1_eq, rowSoftmax_apply]
  unfold Cert.Attn.weight Cert.Attn.mass Cert.Attn.lifted Cert.Attn.peak
  simp only [blockScores_apply Q K x0 x1 n r hq hk]

/-- The stored weights block: the same with the unit axis put back. -/
theorem pay2_apply (x0 : Vec Ideal S1x256x1024 .bf16) (x1 : Vec Ideal S1x2048x1024 .bf16)
    (n : Fin 4) (r : Fin 256 → Fin 2048)
    (hq : ∀ (p : Fin 256) (d : Fin 1024), x0 (ix3 (0 : Fin 1) p d) = Q (ix3 n (r p) d))
    (hk : ∀ (j : Fin 2048) (d : Fin 1024), x1 (ix3 (0 : Fin 1) j d) = K (ix3 n j d))
    (u : Fin 1) (p : Fin 256) (j : Fin 2048) :
    k1_pay2 (F := Ideal) x0 x1 (ix3 u p j) = Cert.Attn.weight Q K n (r p) j := by
  unfold k1_pay2
  show shapeCast S1x256x2048 (k1_pay1 (F := Ideal) x0 x1) shapeCasts_S256x2048_S1x256x2048 (ix3 u p j) = _
  rw [shapeCast_ab_1ab_apply, pay1_apply Q K x0 x1 n r hq hk]

/-- The stored output block: the weights' rows against the values' columns. -/
theorem pay3_apply (x0 : Vec Ideal S1x256x1024 .bf16) (x1 x2 : Vec Ideal S1x2048x1024 .bf16)
    (n : Fin 4) (r : Fin 256 → Fin 2048)
    (hq : ∀ (p : Fin 256) (d : Fin 1024), x0 (ix3 (0 : Fin 1) p d) = Q (ix3 n (r p) d))
    (hk : ∀ (j : Fin 2048) (d : Fin 1024), x1 (ix3 (0 : Fin 1) j d) = K (ix3 n j d))
    (hv : ∀ (j : Fin 2048) (e : Fin 1024), x2 (ix3 (0 : Fin 1) j e) = Vv (ix3 n j e))
    (u : Fin 1) (p : Fin 256) (e : Fin 1024) :
    k1_pay3 (F := Ideal) x0 x1 x2 (ix3 u p e) = Cert.Attn.mixed Q K Vv n (r p) e := by
  unfold k1_pay3
  show shapeCast S1x256x1024 (matmul dot_S256x2048_S2048x1024_S256x1024_1_0_0_1_n_n none
      (truncf .bf16 (k1_pay1 (F := Ideal) x0 x1) bitsLt_bf16_f32 : FVec Ideal S256x2048 .bf16)
      (shapeCast S2048x1024 x2 shapeCasts_S1x2048x1024_S2048x1024 : FVec Ideal S2048x1024 .bf16)
      (constant (F := Ideal) S256x1024 .f32 0x00000000#32)) shapeCasts_S256x1024_S1x256x1024 (ix3 u p e) = _
  rw [shapeCast_ab_1ab_apply]
  simp only [matmul]
  rw [Ideal.matmul_constant_zero_apply]
  refine (Cert.LibPlainDot.sum_plain dot_S256x2048_S2048x1024_S256x1024_1_0_0_1_n_n rfl rfl pv_lhs_0 pv_lhs_1 pv_rhs_0 pv_rhs_1 _ _ p e).trans ?_
  unfold Cert.Attn.mixed
  refine Finset.sum_congr rfl fun j _ => ?_
  rw [truncf_apply, pay1_apply Q K x0 x1 n r hq hk, shapeCast_1ab_ab_apply, hv]

end AtAnEntry

/-! ## From the blocks to the arrays -/

theorem zeros3 : (![0, 0, 0] : Fin 3 → Nat) = fun _ => 0 := funext fun a => by fin_cases a <;> rfl

/-- Two functions of a rank-3 index agree when they agree at every triple of coordinates. -/
theorem funext_ix3 {n0 n1 n2 : ℕ} {β : Type} {f g : (⟨3, ![n0, n1, n2]⟩ : Shape).Idx → β}
    (h : ∀ (u : Fin n0) (p : Fin n1) (e : Fin n2), f (ix3 u p e) = g (ix3 u p e)) : f = g :=
  funext fun y => by rw [eq_ix3 y]; exact h _ _ _

open Cert.KernelIdeal.Tiles in
/-- What point `t` writes back into the output array is its block of the weighted sums of the values. -/
theorem flushed_outputs (c : Dev nD) (t : Fin cfg1.N) :
    (dat1 (F := Ideal) V c).flushed 3 t
      = ((cfg1.win 3).blk t).view.read (Elt Ideal)
          (Cert.Attn.outputs (V c main_v4) (V c main_v5) (V c main_v6) : Buf (Elt Ideal) ((c : Thread nD τ).loc main_v7_0)) := by
  show (cfg1.win 3).cut (grid1.coords t) ((dat1 (F := Ideal) V c).after 3 t) = _
  rw [after1_3]
  unfold out1_3
  rw [View.canon_unit_zero zeros3]
  simp only [View.ld_unit_zero (S := S1x256x1024) zeros3, View.ld_unit_zero (S := S1x2048x1024) zeros3]
  refine funext_ix3 (n0 := 1) (n1 := 256) (n2 := 1024) fun u p e => ?_
  obtain rfl : u = 0 := Subsingleton.elim _ _
  show k1_pay3 (F := Ideal) (iblk1 V c 0 t) (iblk1 V c 1 t) (iblk1 V c 2 t) (ix3 (0 : Fin 1) p e)
    = Cert.Attn.outputs (V c main_v4) (V c main_v5) (V c main_v6) (((cfg1.win 3).blk t).view.emb (ix3 (0 : Fin 1) p e))
  rw [out_emb t p e, Cert.Attn.outputs_ix3]
  exact pay3_apply (V c main_v4) (V c main_v5) (V c main_v6) (iblk1 V c 0 t) (iblk1 V c 1 t) (iblk1 V c 2 t)
    (seqOf t) (rowOf t) (q_block V c t) (k_block V c t) (v_block V c t) 0 p e

open Cert.KernelIdeal.Tiles in
/-- What point `t` writes back into the weights array is its block of the attention weights. -/
theorem flushed_weights (c : Dev nD) (t : Fin cfg1.N) :
    (dat1 (F := Ideal) V c).flushed 4 t
      = ((cfg1.win 4).blk t).view.read (Elt Ideal)
          (Cert.Attn.weights (V c main_v4) (V c main_v5) : Buf (Elt Ideal) ((c : Thread nD τ).loc main_v7_1)) := by
  show (cfg1.win 4).cut (grid1.coords t) ((dat1 (F := Ideal) V c).after 4 t) = _
  rw [after1_4]
  unfold out1_4
  rw [View.canon_unit_zero zeros3]
  simp only [View.ld_unit_zero (S := S1x256x1024) zeros3, View.ld_unit_zero (S := S1x2048x1024) zeros3]
  refine funext_ix3 (n0 := 1) (n1 := 256) (n2 := 2048) fun u p j => ?_
  obtain rfl : u = 0 := Subsingleton.elim _ _
  show k1_pay2 (F := Ideal) (iblk1 V c 0 t) (iblk1 V c 1 t) (ix3 (0 : Fin 1) p j)
    = Cert.Attn.weights (V c main_v4) (V c main_v5) (((cfg1.win 4).blk t).view.emb (ix3 (0 : Fin 1) p j))
  rw [weights_emb t p j, Cert.Attn.weights_ix3]
  exact pay2_apply (V c main_v4) (V c main_v5) (iblk1 V c 0 t) (iblk1 V c 1 t)
    (seqOf t) (rowOf t) (q_block V c t) (k_block V c t) 0 p j

/-- Whatever the query, key and value arrays hold when the region is entered, the weights array ends at their attention weights, -/
theorem result_weights (c : Dev nD) :
    (dat1 (F := Ideal) V c).arrAt 4 cfg1.N
      = (Cert.Attn.weights (V c main_v4) (V c main_v5) : Buf (Elt Ideal) ((c : Thread nD τ).loc main_v7_1)) :=
  (dat1 (F := Ideal) V c).arrAt_eq_of_cover 4 _ (fun t _ => flushed_weights V c t) Cert.KernelIdeal.Tiles.weights_cover

/-- and the output array at the weighted sums of the values. -/
theorem result_outputs (c : Dev nD) :
    (dat1 (F := Ideal) V c).arrAt 3 cfg1.N
      = (Cert.Attn.outputs (V c main_v4) (V c main_v5) (V c main_v6) : Buf (Elt Ideal) ((c : Thread nD τ).loc main_v7_0)) :=
  (dat1 (F := Ideal) V c).arrAt_eq_of_cover 3 _ (fun t _ => flushed_outputs V c t) Cert.KernelIdeal.Tiles.out_cover

end Cert.KernelIdeal.Softmax

end
-- ==== Proof.Glue.lean ====
/-
  Between the launch and the two kernels. The first kernel finds the inputs as 8192 rows (row 2048·n + s is position s of
  sequence n), the weights transposed, and the bias as launched; so entry (2048·n + s, f) of its result is the dense
  layer at (n, s, f). The second kernel finds that result cut back into sequences and into its three runs of 1024
  features: the queries, keys and values. So the program's two results are the attention weights and the weighted sums
  of the values of the launch arguments' dense layer.
-/
import proofs.«141905_j64544768524377_1_alg».proof.Defs
import proofs.«141905_j64544768524377_1_alg».proof.Proof.Spec
import proofs.«141905_j64544768524377_1_alg».proof.Proof.RunNamed
import proofs.«141905_j64544768524377_1_alg».proof.Proof.Region0
import proofs.«141905_j64544768524377_1_alg».proof.Proof.Region1
import Idealize.ShloMosaic.Lib.Pipeline.Value
import Idealize.ShloMosaic.Lib.StableHlo.Run

noncomputable section

open scoped BigOperators
open Idealize.ShloMosaic Idealize.ShloMosaic.TcCoe Idealize.SL.Sem Idealize.ShloMosaic.ValueIdx

namespace Cert.KernelIdeal.Glue

open Cert.KernelIdeal Cert.KernelIdeal.Gen

variable (m : (ℓ : Loc nD τ sig) → Buf (Elt Ideal) ℓ) (ρ : Dev nD → PrngReg)

/-- The three arguments as launched. -/
abbrev argX (c : Dev nD) : S4x2048x1024.Idx → EReal := m ((c : Thread nD τ).loc main_arg0)
abbrev argW (c : Dev nD) : S3072x1024.Idx → EReal := m ((c : Thread nD τ).loc main_arg1)
abbrev argB (c : Dev nD) : S3072.Idx → EReal := m ((c : Thread nD τ).loc main_arg2)

/-! ## What the first kernel finds -/

theorem rows_eq (c : Dev nD) : (V1 m ρ c main_v0 : S8192x1024.Idx → EReal)
    = shapeCast S8192x1024 (argX m c) shapeCasts_S4x2048x1024_S8192x1024 := by
  show StableHlo.after hostOps0 (W0 m ρ c) (Proc.devRef .tc main_v0) = _
  after_results
  rfl

theorem wt_eq (c : Dev nD) : (V1 m ρ c main_v1 : S1024x3072.Idx → EReal)
    = transpose S1024x3072 [1, 0] (argW m c) transposes_S3072x1024_S1024x3072_1_0 := by
  show StableHlo.after hostOps0 (W0 m ρ c) (Proc.devRef .tc main_v1) = _
  after_results

theorem bias_eq (c : Dev nD) : (V1 m ρ c main_arg2 : S3072.Idx → EReal) = argB m c := by
  show StableHlo.after hostOps0 (W0 m ρ c) (Proc.devRef .tc main_arg2) = _
  after_results

/-- Row 2048·n + s of the reshaped inputs is position s of sequence n. -/
theorem rows_apply (c : Dev nD) (n : Fin 4) (s : Fin 2048) (e : Fin 1024) (r : Fin 8192) (hr : r.val = 2048 * n.val + s.val) :
    (V1 m ρ c main_v0 : S8192x1024.Idx → EReal) (ix2 r e) = argX m c (ix3 n s e) := by
  rw [rows_eq]
  refine shapeCast_apply _ _ (ix2 r e) (ix3 n s e) ?_
  rw [Shape.rowMajor_val_three, Shape.rowMajor_val_two]
  show (n.val * 2048 + s.val) * 1024 + e.val = r.val * 1024 + e.val
  omega

/-- The transposed weights at (e, f) are the weights at (f, e). -/
theorem wt_apply (c : Dev nD) (e : Fin 1024) (f : Fin 3072) :
    (V1 m ρ c main_v1 : S1024x3072.Idx → EReal) (ix2 e f) = argW m c (ix2 f e) := by
  rw [wt_eq]
  exact transpose_apply _ _ _ (ix2 e f) (ix2 f e) (fun b => by match b with | ⟨0, _⟩ => rfl | ⟨1, _⟩ => rfl)

/-! ## What it leaves -/

theorem fused_eq (c : Dev nD) : (W2 m ρ c (Proc.devRef .tc main_v2) : S8192x3072.Idx → EReal)
    = Cert.Attn.denseRows (V1 m ρ c main_v0) (V1 m ρ c main_v1) (V1 m ρ c main_arg2) :=
  (W2_arr m ρ c 3).trans (Cert.KernelIdeal.Dense.result_rows (V1 m ρ) c)

/-- Entry (2048·n + s, f) of the first kernel's result is the dense layer of the launch arguments at (n, s, f). -/
theorem fused_apply (c : Dev nD) (n : Fin 4) (s : Fin 2048) (f : Fin 3072) (r : Fin 8192) (hr : r.val = 2048 * n.val + s.val) :
    (W2 m ρ c (Proc.devRef .tc main_v2) : S8192x3072.Idx → EReal) (ix2 r f)
      = Cert.Attn.dense (argX m c) (argW m c) (argB m c) n s f := by
  rw [fused_eq, Cert.Attn.denseRows_ix2, bias_eq]
  unfold Cert.Attn.dense
  refine congrArg (· + _) (Finset.sum_congr rfl fun e _ => ?_)
  rw [rows_apply m ρ c n s e r hr, wt_apply]

/-! ## What the second kernel finds -/

/-- The run of 1024 features from `off` of the first kernel's result, cut back into sequences. -/
theorem run_apply (off : Nat) (hoff : off + 1024 ≤ 3072) (hs : S4x2048x3072.Slices ![0, 0, off] S4x2048x1024)
    (c : Dev nD) (n : Fin 4) (s : Fin 2048) (d : Fin 1024) :
    extractStridedSlice S4x2048x1024 ![0, 0, off]
        (shapeCast S4x2048x3072 (W2 m ρ c (Proc.devRef .tc main_v2) : S8192x3072.Idx → EReal) shapeCasts_S8192x3072_S4x2048x3072) hs (ix3 n s d)
      = Cert.Attn.run1024 off hoff (argX m c) (argW m c) (argB m c) (ix3 n s d) := by
  have hd : off + d.val < 3072 := by have := d.isLt; omega
  have hrow : 2048 * n.val + s.val < 8192 := by have := n.isLt; have := s.isLt; omega
  refine (extractStridedSlice_apply _ _ hs (ix3 n s d) (ix3 n s (⟨off + d.val, hd⟩ : Fin 3072)) (fun a => ?_)).trans ?_
  · match a with
    | ⟨0, _⟩ => show n.val = 0 + n.val; omega
    | ⟨1, _⟩ => show s.val = 0 + s.val; omega
    | ⟨2, _⟩ => rfl
  refine (shapeCast_apply _ _ (ix3 n s (⟨off + d.val, hd⟩ : Fin 3072)) (ix2 (⟨2048 * n.val + s.val, hrow⟩ : Fin 8192) (⟨off + d.val, hd⟩ : Fin 3072)) ?_).trans ?_
  · rw [Shape.rowMajor_val_three, Shape.rowMajor_val_two]
    show (2048 * n.val + s.val) * 3072 + (off + d.val) = (n.val * 2048 + s.val) * 3072 + (off + d.val)
    omega
  rw [fused_apply m ρ c n s _ _ rfl, Cert.Attn.run1024_ix3]

theorem q_eq (c : Dev nD) : (V3 m ρ c main_v4 : S4x2048x1024.Idx → EReal) = Cert.Attn.queries (argX m c) (argW m c) (argB m c) := by
  have h : (V3 m ρ c main_v4 : S4x2048x1024.Idx → EReal) = extractStridedSlice S4x2048x1024 ![0, 0, 0]
      (shapeCast S4x2048x3072 (W2 m ρ c (Proc.devRef .tc main_v2) : S8192x3072.Idx → EReal) shapeCasts_S8192x3072_S4x2048x3072)
      slices_S4x2048x3072_S4x2048x1024_0_0_0 := by
    show StableHlo.after hostOps1 (W2 m ρ c) (Proc.devRef .tc main_v4) = _
    after_results
    rfl
  rw [h]
  funext t
  obtain ⟨n, s, d, rfl⟩ : ∃ (n : Fin 4) (s : Fin 2048) (d : Fin 1024), t = ix3 n s d := ⟨t 0, t 1, t 2, eq_ix3 t⟩
  exact run_apply m ρ 0 (by omega) _ c n s d

theorem k_eq (c : Dev nD) : (V3 m ρ c main_v5 : S4x2048x1024.Idx → EReal) = Cert.Attn.keys (argX m c) (argW m c) (argB m c) := by
  have h : (V3 m ρ c main_v5 : S4x2048x1024.Idx → EReal) = extractStridedSlice S4x2048x1024 ![0, 0, 1024]
      (shapeCast S4x2048x3072 (W2 m ρ c (Proc.devRef .tc main_v2) : S8192x3072.Idx → EReal) shapeCasts_S8192x3072_S4x2048x3072)
      slices_S4x2048x3072_S4x2048x1024_0_0_1024 := by
    show StableHlo.after hostOps1 (W2 m ρ c) (Proc.devRef .tc main_v5) = _
    after_results
    rfl
  rw [h]
  funext t
  obtain ⟨n, s, d, rfl⟩ : ∃ (n : Fin 4) (s : Fin 2048) (d : Fin 1024), t = ix3 n s d := ⟨t 0, t 1, t 2, eq_ix3 t⟩
  exact run_apply m ρ 1024 (by omega) _ c n s d

theorem v_eq (c : Dev nD) : (V3 m ρ c main_v6 : S4x2048x1024.Idx → EReal) = Cert.Attn.values (argX m c) (argW m c) (argB m c) := by
  have h : (V3 m ρ c main_v6 : S4x2048x1024.Idx → EReal) = extractStridedSlice S4x2048x1024 ![0, 0, 2048]
      (shapeCast S4x2048x3072 (W2 m ρ c (Proc.devRef .tc main_v2) : S8192x3072.Idx → EReal) shapeCasts_S8192x3072_S4x2048x3072)
      slices_S4x2048x3072_S4x2048x1024_0_0_2048 := by
    show StableHlo.after hostOps1 (W2 m ρ c) (Proc.devRef .tc main_v6) = _
    after_results
    rfl
  rw [h]
  funext t
  obtain ⟨n, s, d, rfl⟩ : ∃ (n : Fin 4) (s : Fin 2048) (d : Fin 1024), t = ix3 n s d := ⟨t 0, t 1, t 2, eq_ix3 t⟩
  exact run_apply m ρ 2048 (by omega) _ c n s d

/-! ## The program's two results -/

theorem out_eq (c : Dev nD) : W4 m ρ c (Proc.devRef .tc main_v7_0)
    = (Cert.Attn.outputs (Cert.Attn.queries (argX m c) (argW m c) (argB m c)) (Cert.Attn.keys (argX m c) (argW m c) (argB m c))
        (Cert.Attn.values (argX m c) (argW m c) (argB m c)) : Buf (Elt Ideal) ((c : Thread nD τ).loc main_v7_0)) := by
  refine (Cert.KernelIdeal.Named.W4_out m ρ c).trans ((Cert.KernelIdeal.Softmax.result_outputs (V3 m ρ) c).trans ?_)
  rw [q_eq, k_eq, v_eq]

theorem weights_eq (c : Dev nD) : W4 m ρ c (Proc.devRef .tc main_v7_1)
    = (Cert.Attn.weights (Cert.Attn.queries (argX m c) (argW m c) (argB m c)) (Cert.Attn.keys (argX m c) (argW m c) (argB m c))
        : Buf (Elt Ideal) ((c : Thread nD τ).loc main_v7_1)) := by
  refine (Cert.KernelIdeal.Named.W4_weights m ρ c).trans ((Cert.KernelIdeal.Softmax.result_weights (V3 m ρ) c).trans ?_)
  rw [q_eq, k_eq]

/-- The run with its results read: the two result arrays at the attention of the launch arguments, the arguments as launched. -/
theorem run : θ_run defs (onTc (τ := τ) (main (F := Ideal))) ⟨m, fun _ => 0, ρ⟩ (fun r => ∀ c : Dev nD,
      r.2.mem ((c.tc : Thread nD τ).loc main_v7_0)
        = (Cert.Attn.outputs (Cert.Attn.queries (argX m c) (argW m c) (argB m c)) (Cert.Attn.keys (argX m c) (argW m c) (argB m c))
            (Cert.Attn.values (argX m c) (argW m c) (argB m c)) : Buf (Elt Ideal) ((c : Thread nD τ).loc main_v7_0))
      ∧ r.2.mem ((c.tc : Thread nD τ).loc main_v7_1)
        = (Cert.Attn.weights (Cert.Attn.queries (argX m c) (argW m c) (argB m c)) (Cert.Attn.keys (argX m c) (argW m c) (argB m c))
            : Buf (Elt Ideal) ((c : Thread nD τ).loc main_v7_1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (out_eq m ρ c), (h c).2.1.trans (weights_eq m ρ c), (h c).2.2⟩)
    (Cert.KernelIdeal.Named.run m ρ)

end Cert.KernelIdeal.Glue

end
-- ==== Proof.RefSide.lean ====
/-
  The reference's two results, read one operation at a time, are the attention weights and the weighted sums of the
  values of the dense layer's three runs: its division by 32 is the product with 2⁻⁵, and its row maximum capped from
  below by the maximum's own start is the row maximum.
-/
import proofs.«141905_j64544768524377_1_alg».proof.Defs
import proofs.«141905_j64544768524377_1_alg».proof.Proof.Spec
import proofs.«141905_j64544768524377_1_alg».proof.Proof.Gen.ReferenceIdeal.Read
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.Attention

open Cert.ReferenceIdeal Cert.ReferenceIdeal.Read

variable (X : Cert.Attn.Tok.Idx → EReal) (W : Cert.Attn.Wgt.Idx → EReal) (b : Cert.Attn.Bias.Idx → EReal)

/-! ## The dense layer, entry by entry -/

/-- Entry (n, s, f) of the first product sums over e the input at (n, s, e) … -/
theorem dense_left (n : Fin 4) (s : Fin 2048) (f : Fin 3072) (e : Fin 1024) :
    lidx_main_v0 (ix3 n s f) e = ix3 n s e :=
  funext fun a => Fin.ext (by match a with | ⟨0, _⟩ => rfl | ⟨1, _⟩ => rfl | ⟨2, _⟩ => rfl)

/-- … against the weight at (f, e). -/
theorem dense_right (n : Fin 4) (s : Fin 2048) (f : Fin 3072) (e : Fin 1024) :
    ridx_main_v0 (ix3 n s f) e = ix2 f e :=
  funext fun a => Fin.ext (by match a with | ⟨0, _⟩ => rfl | ⟨1, _⟩ => rfl)

/-- The bias spread over sequences and positions is read at the feature alone. -/
theorem bias_at (n : Fin 4) (s : Fin 2048) (f : Fin 3072) :
    idx_main_v1 (idx_main_v2 (ix3 n s f)) = ix1 f :=
  funext fun a => Fin.ext (by match a with | ⟨0, _⟩ => rfl)

/-- The reference's fused layer at (n, s, f) is the dense layer there. -/
theorem dense_at (n : Fin 4) (s : Fin 2048) (f : Fin 3072) :
    val_main_v3 (F := Ideal) X W b (ix3 n s f) = Cert.Attn.dense X W b n s f := by
  rw [val_main_v3_apply, val_main_v0_apply, val_main_v2_apply, val_main_v1_apply, bias_at]
  simp only [dense_left, dense_right, Ideal.addf_def]
  rfl

/-! ## The three runs of 1024 features -/

/-- The first slice is the queries. -/
theorem queries_eq : val_main_v4 (F := Ideal) X W b = Cert.Attn.queries X W b := by
  funext t
  obtain ⟨n, s, d, rfl⟩ : ∃ (n : Fin 4) (s : Fin 2048) (d : Fin 1024), t = ix3 n s d := ⟨t 0, t 1, t 2, eq_ix3 t⟩
  have e : idx_main_v4 (ix3 n s d) = ix3 n s (⟨0 + d.val, by have := d.isLt; omega⟩ : Fin 3072) :=
    funext fun a => Fin.ext (by
      match a with
      | ⟨0, _⟩ => rfl
      | ⟨1, _⟩ => rfl
      | ⟨2, _⟩ => show d.val = 0 + d.val; omega)
  rw [val_main_v4_apply, e, dense_at]
  rfl

/-- The second slice is the keys. -/
theorem keys_eq : val_main_v5 (F := Ideal) X W b = Cert.Attn.keys X W b := by
  funext t
  obtain ⟨n, s, d, rfl⟩ : ∃ (n : Fin 4) (s : Fin 2048) (d : Fin 1024), t = ix3 n s d := ⟨t 0, t 1, t 2, eq_ix3 t⟩
  have e : idx_main_v5 (ix3 n s d) = ix3 n s (⟨1024 + d.val, by have := d.isLt; omega⟩ : Fin 3072) :=
    funext fun a => Fin.ext (by match a with | ⟨0, _⟩ => rfl | ⟨1, _⟩ => rfl | ⟨2, _⟩ => rfl)
  rw [val_main_v5_apply, e, dense_at]
  rfl

/-- The third slice is the values. -/
theorem values_eq : val_main_v6 (F := Ideal) X W b = Cert.Attn.values X W b := by
  funext t
  obtain ⟨n, s, d, rfl⟩ : ∃ (n : Fin 4) (s : Fin 2048) (d : Fin 1024), t = ix3 n s d := ⟨t 0, t 1, t 2, eq_ix3 t⟩
  have e : idx_main_v6 (ix3 n s d) = ix3 n s (⟨2048 + d.val, by have := d.isLt; omega⟩ : Fin 3072) :=
    funext fun a => Fin.ext (by match a with | ⟨0, _⟩ => rfl | ⟨1, _⟩ => rfl | ⟨2, _⟩ => rfl)
  rw [val_main_v6_apply, e, dense_at]
  rfl

/-! ## Scores -/

/-- Entry (n, i, j) of the second product sums over d the query at (n, i, d) … -/
theorem score_left (n : Fin 4) (i j : Fin 2048) (d : Fin 1024) :
    lidx_main_v7 (ix3 n i j) d = ix3 n i d :=
  funext fun a => Fin.ext (by match a with | ⟨0, _⟩ => rfl | ⟨1, _⟩ => rfl | ⟨2, _⟩ => rfl)

/-- … against the key at (n, j, d). -/
theorem score_right (n : Fin 4) (i j : Fin 2048) (d : Fin 1024) :
    ridx_main_v7 (ix3 n i j) d = ix3 n j d :=
  funext fun a => Fin.ext (by match a with | ⟨0, _⟩ => rfl | ⟨1, _⟩ => rfl | ⟨2, _⟩ => rfl)

/-- The inner product divided by 32 is the score: the inner product times 2⁻⁵. -/
theorem score_at (n : Fin 4) (i j : Fin 2048) :
    val_main_v9 (F := Ideal) X W b (ix3 n i j)
      = Cert.Attn.score (Cert.Attn.queries X W b) (Cert.Attn.keys X W b) n i j := by
  rw [val_main_v9_apply, val_main_v7_apply, val_main_v8_apply, val_main_cst_apply, queries_eq, keys_eq]
  simp only [score_left, score_right, Ideal.hostDivf_def, Ideal.ofBits_def]
  exact Cert.Attn.div_32 _

/-! ## The row maximum -/

/-- Row (n, i) of the scores with column k put back is the entry (n, i, k). -/
theorem row_put (h : S4x2048x2048.Reduces [2] S4x2048) (n : Fin 4) (i : Fin 2048) (k : Fin (S4x2048x2048.size 2)) :
    h.lift (ix2 n i) k = ix3 n i (⟨k.val, k.isLt⟩ : Fin 2048) :=
  funext fun c => Fin.ext (by match c with | ⟨0, _⟩ => rfl | ⟨1, _⟩ => rfl | ⟨2, _⟩ => rfl)

/-- The running maximum of row (n, i), capped from below by its own start, is the row's largest score. -/
theorem peak_at (n : Fin 4) (i : Fin 2048) :
    val_main_v12 (F := Ideal) X W b (ix2 n i)
      = Cert.Attn.peak (Cert.Attn.queries X W b) (Cert.Attn.keys X W b) n i := by
  have h : S4x2048x2048.Reduces [2] S4x2048 := by decide
  have hf : (val_main_v9 (F := Ideal) X W b ∘ h.lift (ix2 n i))
      = fun k : Fin (S4x2048x2048.size 2) =>
          Cert.Attn.score (Cert.Attn.queries X W b) (Cert.Attn.keys X W b) n i (⟨k.val, k.isLt⟩ : Fin 2048) :=
    funext fun k => by
      show val_main_v9 (F := Ideal) X W b (h.lift (ix2 n i) k) = _
      rw [row_put, score_at]
  rw [val_main_v12_apply, val_main_v11_apply, val_main_cst_1_apply]
  unfold val_main_v10
  rw [Host.reduce_eq_fold_single FloatOps.maximumf _ _ Facts₀.reducesTo_S4x2048x2048_S4x2048_d2 h Facts₀.h_S_ (ix2 n i),
    val_main_cst_0_apply, hf]
  exact Cert.Attn.max_start_fold (Finset.univ : Finset (Fin 2048)) Cert.Attn.start
    (fun j => Cert.Attn.score (Cert.Attn.queries X W b) (Cert.Attn.keys X W b) n i j)

/-! ## Exponentials, row totals, weights -/

/-- The row maximum spread back over the row is read at (n, i). -/
theorem peak_spread (n : Fin 4) (i j : Fin 2048) :
    idx_main_v13 (idx_main_v14 (ix3 n i j)) = ix2 n i :=
  funext fun a => Fin.ext (by match a with | ⟨0, _⟩ => rfl | ⟨1, _⟩ => rfl)

/-- The exponential of a score's distance below its row's largest. -/
theorem lifted_at (n : Fin 4) (i j : Fin 2048) :
    val_main_v16 (F := Ideal) X W b (ix3 n i j)
      = Cert.Attn.lifted (Cert.Attn.queries X W b) (Cert.Attn.keys X W b) n i j := by
  rw [val_main_v16_apply, val_main_v15_apply, val_main_v14_apply, val_main_v13_apply, peak_spread, score_at, peak_at]
  rfl

/-- Row (n, i) summed over column k reads the entry (n, i, k). -/
theorem mass_term (n : Fin 4) (i k : Fin 2048) :
    idx_main_v17 (ix2 n i) k = ix3 n i k :=
  funext fun a => Fin.ext (by match a with | ⟨0, _⟩ => rfl | ⟨1, _⟩ => rfl | ⟨2, _⟩ => rfl)

/-- The row's total: the sum starts at zero. -/
theorem mass_at (n : Fin 4) (i : Fin 2048) :
    val_main_v17 (F := Ideal) X W b (ix2 n i)
      = Cert.Attn.mass (Cert.Attn.queries X W b) (Cert.Attn.keys X W b) n i := by
  rw [val_main_v17_apply, val_main_cst_2_apply]
  simp only [mass_term, lifted_at, Ideal.ofBits_def, Ideal.ofBits_zero_f32, zero_add]
  rfl

/-- The row total spread back over the row is read at (n, i). -/
theorem mass_spread (n : Fin 4) (i j : Fin 2048) :
    idx_main_v18 (idx_main_v19 (ix3 n i j)) = ix2 n i :=
  funext fun a => Fin.ext (by match a with | ⟨0, _⟩ => rfl | ⟨1, _⟩ => rfl)

/-- The attention weight at (n, i, j). -/
theorem weight_at (n : Fin 4) (i j : Fin 2048) :
    val_main_v20 (F := Ideal) X W b (ix3 n i j)
      = Cert.Attn.weight (Cert.Attn.queries X W b) (Cert.Attn.keys X W b) n i j := by
  rw [val_main_v20_apply, val_main_v19_apply, val_main_v18_apply, mass_spread, lifted_at, mass_at]
  rfl

/-! ## The two results -/

theorem weights_eq : val_main_v20 (F := Ideal) X W b = Cert.Attn.weights (Cert.Attn.queries X W b) (Cert.Attn.keys X W b) := by
  funext t
  obtain ⟨n, i, j, rfl⟩ : ∃ (n : Fin 4) (i j : Fin 2048), t = ix3 n i j := ⟨t 0, t 1, t 2, eq_ix3 t⟩
  rw [weight_at]
  rfl

/-- Entry (n, i, e) of the last product sums over j the weight at (n, i, j) … -/
theorem mixed_left (n : Fin 4) (i : Fin 2048) (e : Fin 1024) (j : Fin 2048) :
    lidx_main_v21 (ix3 n i e) j = ix3 n i j :=
  funext fun a => Fin.ext (by match a with | ⟨0, _⟩ => rfl | ⟨1, _⟩ => rfl | ⟨2, _⟩ => rfl)

/-- … against the value at (n, j, e). -/
theorem mixed_right (n : Fin 4) (i : Fin 2048) (e : Fin 1024) (j : Fin 2048) :
    ridx_main_v21 (ix3 n i e) j = ix3 n j e :=
  funext fun a => Fin.ext (by match a with | ⟨0, _⟩ => rfl | ⟨1, _⟩ => rfl | ⟨2, _⟩ => rfl)

theorem outputs_eq : val_main_v21 (F := Ideal) X W b
    = Cert.Attn.outputs (Cert.Attn.queries X W b) (Cert.Attn.keys X W b) (Cert.Attn.values X W b) := by
  funext t
  obtain ⟨n, i, e, rfl⟩ : ∃ (n : Fin 4) (i : Fin 2048) (e : Fin 1024), t = ix3 n i e := ⟨t 0, t 1, t 2, eq_ix3 t⟩
  rw [val_main_v21_apply, values_eq]
  simp only [mixed_left, mixed_right, weight_at]
  rfl

end Cert.ReferenceIdeal.Attention

end
-- ==== Proof.lean ====
/-
  Fused projection and softmax attention, in two kernels, against the same computation written with whole-array
  operations. Both programs apply one dense layer to every position (input row against weight row, plus bias), read its
  3072 outputs as query, key and value, score every pair of positions of a sequence by the queries' inner products with
  the keys, turn each row of scores into weights (subtract the row's largest, exponentiate, divide by the row's total)
  and return the weights and the weighted sums of the values. They differ in the order of the work and in two spellings:
  the kernels multiply the scores by 2⁻⁵ where the reference divides by 32, equal at every extended real; and the
  reference caps the row maximum from below by the value the maximum started from, which changes nothing. The tiling —
  256 rows of positions at a time, the 4·2048 positions as 8192 rows for the dense layer — disappears once every block
  is read as a restriction of one whole-array function. No step needs the inputs finite.
-/
import proofs.«141905_j64544768524377_1_alg».proof.Defs
import proofs.«141905_j64544768524377_1_alg».proof.Proof.Gen.Kernel
import proofs.«141905_j64544768524377_1_alg».proof.Proof.Gen.Kernel.Skeleton
import proofs.«141905_j64544768524377_1_alg».proof.Proof.Gen.Kernel.Launch
import proofs.«141905_j64544768524377_1_alg».proof.Proof.Gen.Kernel.Points
import proofs.«141905_j64544768524377_1_alg».proof.Proof.Gen.Kernel.Frame
import proofs.«141905_j64544768524377_1_alg».proof.Proof.Gen.KernelIdeal
import proofs.«141905_j64544768524377_1_alg».proof.Proof.Gen.KernelIdeal.Skeleton
import proofs.«141905_j64544768524377_1_alg».proof.Proof.Gen.KernelIdeal.Launch
import proofs.«141905_j64544768524377_1_alg».proof.Proof.Gen.KernelIdeal.Points
import proofs.«141905_j64544768524377_1_alg».proof.Proof.Gen.KernelIdeal.Frame
import proofs.«141905_j64544768524377_1_alg».proof.Proof.Gen.ReferenceIdeal
import proofs.«141905_j64544768524377_1_alg».proof.Proof.Gen.Pre_finite_inputs
import proofs.«141905_j64544768524377_1_alg».proof.Proof.Gen.ReferenceIdeal.Run
import proofs.«141905_j64544768524377_1_alg».proof.Proof.Gen.ReferenceIdeal.Read
import proofs.«141905_j64544768524377_1_alg».proof.Proof.Spec
import proofs.«141905_j64544768524377_1_alg».proof.Proof.Glue
import proofs.«141905_j64544768524377_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernels run to the end and leave the arguments alone. -/
theorem frame_kernel : Cert.frame_Kernel := fun m ρ _ => Cert.Kernel.Gen.frame m ρ

/-- So do the kernels read over the extended reals. -/
theorem frame_kernelIdeal : Cert.frame_KernelIdeal := fun m ρ _ => Cert.KernelIdeal.Gen.frame m ρ

/-- The reference runs to the end and leaves the arguments alone: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the weighted sums of the values and the attention weights of the arguments' dense layer. -/
theorem algebraic : Cert.algebraic_KernelIdeal_ReferenceIdeal := by
  intro m ρ m' ρ' _ hagree
  refine ⟨_, _, Cert.KernelIdeal.Glue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v21_eq, (hagree c).1, (hagree c).2.1, (hagree c).2.2]
    exact Cert.ReferenceIdeal.Attention.outputs_eq _ _ _
  · rw [Cert.ReferenceIdeal.Read.val_main_v20_eq, (hagree c).1, (hagree c).2.1, (hagree c).2.2]
    exact Cert.ReferenceIdeal.Attention.weights_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
